-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x16x65 : Shape := ⟨3, ![32768, 16, 65]⟩
abbrev S3x64 : Shape := ⟨2, ![3, 64]⟩
abbrev S3x1 : Shape := ⟨2, ![3, 1]⟩
abbrev S3 : Shape := ⟨1, ![3]⟩
abbrev S1x1 : Shape := ⟨2, ![1, 1]⟩
abbrev S1 : Shape := ⟨1, ![1]⟩
abbrev S_ : Shape := ⟨0, ![]⟩

class Facts : Prop where
  bcast_S_S32768x16x65 : S_.BroadcastsInDim S32768x16x65 (![] : Fin 0 → Fin S32768x16x65.rank)
  reducesTo_S32768x16x65_S_d0_1_2 : S32768x16x65.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S3x1 : S_.BroadcastsInDim S3x1 (![] : Fin 0 → Fin S3x1.rank)
  reducesTo_S3x1_S_d0_1 : S3x1.ReducesTo [0, 1] S_
  bcast_S_S3 : S_.BroadcastsInDim S3 (![] : Fin 0 → Fin S3.rank)
  reducesTo_S3_S_d0 : S3.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S3 .f32) (main_arg5 : FVec F S1x1 .f32) (main_arg6 : FVec F S1 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S32768x16x65 .f32) (main_arg1 : FVec F S3x64 .f32) (main_arg2 : FVec F S3x1 .f32) (main_arg3 : FVec F S3 .f32) (main_arg4 : FVec F S3 .f32) (main_arg5 : FVec F S1x1 .f32) (main_arg6 : FVec F S1 .f32) : IVec S_ 1 :=
  let main_v0 : FVec F S32768x16x65 .f32 := Host.absf main_arg0
  let main_cst : FVec F S_ .f32 := constant S_ .f32 0x7F800000#32
  let main_v1 : FVec F S32768x16x65 .f32 := broadcastInDim S32768x16x65 ![] bcast_S_S32768x16x65 main_cst
  let main_v2 : IVec S32768x16x65 1 := cmpf .olt main_v0 main_v1
  let main_c : IVec S_ 1 := constantI S_ 1 1#1
  let main_v3 : IVec S_ 1 := (fun x v => Host.reduce IntOp.andi x v reducesTo_S32768x16x65_S_d0_1_2 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S3x1 .f32 := Host.absf main_arg2
  let main_cst_2 : FVec F S_ .f32 := constant S_ .f32 0x7F800000#32
  let main_v10 : FVec F S3x1 .f32 := broadcastInDim S3x1 ![] bcast_S_S3x1 main_cst_2
  let main_v11 : IVec S3x1 1 := cmpf .olt main_v9 main_v10
  let main_c_3 : IVec S_ 1 := constantI S_ 1 1#1
  let main_v12 : IVec S_ 1 := (fun x v => Host.reduce IntOp.andi x v reducesTo_S3x1_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_v13 main_v16
-- ==== Kernel.lean ====
abbrev S32768x16x65 : Shape := ⟨3, ![32768, 16, 65]⟩
abbrev S3x64 : Shape := ⟨2, ![3, 64]⟩
abbrev S3x1 : Shape := ⟨2, ![3, 1]⟩
abbrev S3 : Shape := ⟨1, ![3]⟩
abbrev S1x1 : Shape := ⟨2, ![1, 1]⟩
abbrev S1 : Shape := ⟨1, ![1]⟩
abbrev S524288x65 : Shape := ⟨2, ![524288, 65]⟩
abbrev S64x3 : Shape := ⟨2, ![64, 3]⟩
abbrev S1x3 : Shape := ⟨2, ![1, 3]⟩
abbrev S524288x1 : Shape := ⟨2, ![524288, 1]⟩
abbrev S4096x65 : Shape := ⟨2, ![4096, 65]⟩
abbrev S4096x1 : Shape := ⟨2, ![4096, 1]⟩
abbrev S4096x64 : Shape := ⟨2, ![4096, 64]⟩
abbrev S4096x3 : Shape := ⟨2, ![4096, 3]⟩
abbrev S4096x2 : Shape := ⟨2, ![4096, 2]⟩
abbrev S32768x16x1 : Shape := ⟨3, ![32768, 16, 1]⟩

abbrev nBuf : Space → Nat
  | .hbm => 15
  | .vmem => 10
  | .smem => 0
  | _ => 0

abbrev bufTy : (tb : Table) → Fin (tcTables nBuf tb) → BufTy
  | .hbm, ⟨0, _⟩ => ⟨S32768x16x65, .f32⟩
  | .hbm, ⟨1, _⟩ => ⟨S3x64, .f32⟩
  | .hbm, ⟨2, _⟩ => ⟨S3x1, .f32⟩
  | .hbm, ⟨3, _⟩ => ⟨S3, .f32⟩
  | .hbm, ⟨4, _⟩ => ⟨S3, .f32⟩
  | .hbm, ⟨5, _⟩ => ⟨S1x1, .f32⟩
  | .hbm, ⟨6, _⟩ => ⟨S1, .f32⟩
  | .hbm, ⟨7, _⟩ => ⟨S524288x65, .f32⟩
  | .hbm, ⟨8, _⟩ => ⟨S64x3, .f32⟩
  | .hbm, ⟨9, _⟩ => ⟨S1x3, .f32⟩
  | .hbm, ⟨10, _⟩ => ⟨S1x3, .f32⟩
  | .hbm, ⟨11, _⟩ => ⟨S1x3, .f32⟩
  | .hbm, ⟨12, _⟩ => ⟨S1x1, .f32⟩
  | .hbm, ⟨13, _⟩ => ⟨S524288x1, .f32⟩
  | .hbm, ⟨14, _⟩ => ⟨S32768x16x1, .f32⟩
  | .local _ .vmem, ⟨0, _⟩ => ⟨S4096x65, .f32⟩
  | .local _ .vmem, ⟨1, _⟩ => ⟨S4096x65, .f32⟩
  | .local _ .vmem, ⟨2, _⟩ => ⟨S64x3, .f32⟩
  | .local _ .vmem, ⟨3, _⟩ => ⟨S1x3, .f32⟩
  | .local _ .vmem, ⟨4, _⟩ => ⟨S1x3, .f32⟩
  | .local _ .vmem, ⟨5, _⟩ => ⟨S1x3, .f32⟩
  | .local _ .vmem, ⟨6, _⟩ => ⟨S1x1, .f32⟩
  | .local _ .vmem, ⟨7, _⟩ => ⟨S1x1, .f32⟩
  | .local _ .vmem, ⟨8, _⟩ => ⟨S4096x1, .f32⟩
  | .local _ .vmem, ⟨9, _⟩ => ⟨S4096x1, .f32⟩
  | _, _ => ⟨S32768x16x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32768x16x65_S524288x65 : S32768x16x65.ShapeCasts S524288x65
  transposes_S3x64_S64x3_1_0 : S3x64.Transposes [1, 0] S64x3
  transposes_S3x1_S1x3_1_0 : S3x1.Transposes [1, 0] S1x3
  shapeCasts_S3_S1x3 : S3.ShapeCasts S1x3
  shapeCasts_S1_S1x1 : S1.ShapeCasts S1x1
  inb_S4096x65_S4096x65_0_0 : ∀ a, (![0, 0] : Fin 2 → Nat) a + S4096x65.size a ≤ S4096x65.size a
  h_S4096x65 : 0 < S4096x65.numel
  shapeCasts_S4096x65_S4096x65 : S4096x65.ShapeCasts S4096x65
  slices_S4096x65_o0_1_S4096x64 : S4096x65.Slices ![0, 1] S4096x64
  slices_S4096x65_o0_0_S4096x1 : S4096x65.Slices ![0, 0] S4096x1
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4096x3 : S1x3.Broadcasts S4096x3
  broadcasts_S4096x1_S4096x3 : S4096x1.Broadcasts S4096x3
  slices_S4096x3_o0_0_S4096x2 : S4096x3.Slices ![0, 0] S4096x2
  slices_S4096x2_o0_0_S4096x1 : S4096x2.Slices ![0, 0] S4096x1
  slices_S4096x2_o0_1_S4096x1 : S4096x2.Slices ![0, 1] S4096x1
  slices_S4096x3_o0_2_S4096x1 : S4096x3.Slices ![0, 2] S4096x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096x1_S4096x1_0_0 : ∀ a, (![0, 0] : Fin 2 → Nat) a + S4096x1.size a ≤ S4096x1.size a
  h_S4096x1 : 0 < S4096x1.numel
  shapeCasts_S524288x1_S32768x16x1 : S524288x1.ShapeCasts S32768x16x1
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x65.size a ≤ S524288x65.size a
  hwx0_0 : ∀ i : grid0.Coords, EltTy.bits .f32 = 32 ∨ (Rect.block (s := S524288x65) S4096x65.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S64x3.size a
  hwx0_1 : ∀ i : grid0.Coords, EltTy.bits .f32 = 32 ∨ (Rect.block (s := S64x3) S64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3.size a ≤ S1x3.size a
  hwx0_3 : ∀ i : grid0.Coords, EltTy.bits .f32 = 32 ∨ (Rect.block (s := S1x3) S1x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S524288x1.size a
  hwx0_7 : ∀ i : grid0.Coords, EltTy.bits .f32 = 32 ∨ (Rect.block (s := S524288x1) S4096x1.size (cc0_transform_7 i) (hinb0_7 i)).WholeWords (EltTy.packing .f32)

variable [Facts₀]

def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_v0) S4096x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x16x65 : Shape := ⟨3, ![32768, 16, 65]⟩
abbrev S3x64 : Shape := ⟨2, ![3, 64]⟩
abbrev S3x1 : Shape := ⟨2, ![3, 1]⟩
abbrev S3 : Shape := ⟨1, ![3]⟩
abbrev S1x1 : Shape := ⟨2, ![1, 1]⟩
abbrev S1 : Shape := ⟨1, ![1]⟩
abbrev S32768x16x64 : Shape := ⟨3, ![32768, 16, 64]⟩
abbrev S524288x64 : Shape := ⟨2, ![524288, 64]⟩
abbrev S32768x16x1 : Shape := ⟨3, ![32768, 16, 1]⟩
abbrev S524288x1 : Shape := ⟨2, ![524288, 1]⟩
abbrev S64x3 : Shape := ⟨2, ![64, 3]⟩
abbrev S524288x3 : Shape := ⟨2, ![524288, 3]⟩
abbrev S1x3 : Shape := ⟨2, ![1, 3]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S32768x16x65, .f32⟩
  | .hbm, ⟨1, _⟩ => ⟨S3x64, .f32⟩
  | .hbm, ⟨2, _⟩ => ⟨S3x1, .f32⟩
  | .hbm, ⟨3, _⟩ => ⟨S3, .f32⟩
  | .hbm, ⟨4, _⟩ => ⟨S3, .f32⟩
  | .hbm, ⟨5, _⟩ => ⟨S1x1, .f32⟩
  | .hbm, ⟨6, _⟩ => ⟨S1, .f32⟩
  | .hbm, ⟨7, _⟩ => ⟨S32768x16x64, .f32⟩
  | .hbm, ⟨8, _⟩ => ⟨S524288x64, .f32⟩
  | .hbm, ⟨9, _⟩ => ⟨S32768x16x1, .f32⟩
  | .hbm, ⟨10, _⟩ => ⟨S524288x1, .f32⟩
  | .hbm, ⟨11, _⟩ => ⟨S64x3, .f32⟩
  | .hbm, ⟨12, _⟩ => ⟨S524288x3, .f32⟩
  | .hbm, ⟨13, _⟩ => ⟨S1x3, .f32⟩
  | .hbm, ⟨14, _⟩ => ⟨S524288x3, .f32⟩
  | .hbm, ⟨15, _⟩ => ⟨S524288x3, .f32⟩
  | .hbm, ⟨16, _⟩ => ⟨S1x3, .f32⟩
  | .hbm, ⟨17, _⟩ => ⟨S524288x3, .f32⟩
  | .hbm, ⟨18, _⟩ => ⟨S1x3, .f32⟩
  | .hbm, ⟨19, _⟩ => ⟨S524288x3, .f32⟩
  | .hbm, ⟨20, _⟩ => ⟨S524288x3, .f32⟩
  | .hbm, ⟨21, _⟩ => ⟨S524288x1, .f32⟩
  | .hbm, ⟨22, _⟩ => ⟨S524288x1, .f32⟩
  | .hbm, ⟨23, _⟩ => ⟨S524288x1, .f32⟩
  | .hbm, ⟨24, _⟩ => ⟨S524288x1, .f32⟩
  | .hbm, ⟨25, _⟩ => ⟨S524288x1, .f32⟩
  | .hbm, ⟨26, _⟩ => ⟨S_, .f32⟩
  | .hbm, ⟨27, _⟩ => ⟨S524288x1, .f32⟩
  | .hbm, ⟨28, _⟩ => ⟨S524288x1, .f32⟩
  | .hbm, ⟨29, _⟩ => ⟨S_, .f32⟩
  | .hbm, ⟨30, _⟩ => ⟨S524288x1, .f32⟩
  | .hbm, ⟨31, _⟩ => ⟨S524288x1, .f32⟩
  | .hbm, ⟨32, _⟩ => ⟨S524288x1, .f32⟩
  | .hbm, ⟨33, _⟩ => ⟨S524288x1, .f32⟩
  | .hbm, ⟨34, _⟩ => ⟨S524288x1, .f32⟩
  | .hbm, ⟨35, _⟩ => ⟨S524288x1, .f32⟩
  | .hbm, ⟨36, _⟩ => ⟨S524288x1, .f32⟩
  | .hbm, ⟨37, _⟩ => ⟨S_, .f32⟩
  | .hbm, ⟨38, _⟩ => ⟨S524288x1, .f32⟩
  | .hbm, ⟨39, _⟩ => ⟨S524288x1, .f32⟩
  | .hbm, ⟨40, _⟩ => ⟨S_, .f32⟩
  | .hbm, ⟨41, _⟩ => ⟨S524288x1, .f32⟩
  | .hbm, ⟨42, _⟩ => ⟨S524288x1, .f32⟩
  | .hbm, ⟨43, _⟩ => ⟨S524288x1, .f32⟩
  | .hbm, ⟨44, _⟩ => ⟨S524288x1, .f32⟩
  | .hbm, ⟨45, _⟩ => ⟨S524288x1, .f32⟩
  | .hbm, ⟨46, _⟩ => ⟨S524288x1, .f32⟩
  | .hbm, ⟨47, _⟩ => ⟨S524288x1, .f32⟩
  | .hbm, ⟨48, _⟩ => ⟨S_, .f32⟩
  | .hbm, ⟨49, _⟩ => ⟨S524288x1, .f32⟩
  | .hbm, ⟨50, _⟩ => ⟨S524288x1, .f32⟩
  | .hbm, ⟨51, _⟩ => ⟨S524288x1, .f32⟩
  | .hbm, ⟨52, _⟩ => ⟨S524288x1, .f32⟩
  | .hbm, ⟨53, _⟩ => ⟨S524288x1, .f32⟩
  | .hbm, ⟨54, _⟩ => ⟨S_, .f32⟩
  | .hbm, ⟨55, _⟩ => ⟨S524288x1, .f32⟩
  | .hbm, ⟨56, _⟩ => ⟨S524288x1, .f32⟩
  | .hbm, ⟨57, _⟩ => ⟨S_, .f32⟩
  | .hbm, ⟨58, _⟩ => ⟨S524288x1, .f32⟩
  | .hbm, ⟨59, _⟩ => ⟨S524288x1, .f32⟩
  | .hbm, ⟨60, _⟩ => ⟨S32768x16x1, .f32⟩
  | _, _ => ⟨S32768x16x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  slices_S32768x16x65_S32768x16x64_0_0_1 : S32768x16x65.Slices ![0, 0, 1] S32768x16x64
  shapeCasts_S32768x16x64_S524288x64 : S32768x16x64.ShapeCasts S524288x64
  slices_S32768x16x65_S32768x16x1_0_0_0 : S32768x16x65.Slices ![0, 0, 0] S32768x16x1
  shapeCasts_S32768x16x1_S524288x1 : S32768x16x1.ShapeCasts S524288x1
  transposes_S3x64_S64x3_1_0 : S3x64.Transposes [1, 0] S64x3
  bcast_S3_S1x3_1 : S3.BroadcastsInDim S1x3 (![1] : Fin 1 → Fin S1x3.rank)
  bcast_S1x3_S524288x3_0_1 : S1x3.BroadcastsInDim S524288x3 (![0, 1] : Fin 2 → Fin S524288x3.rank)
  transposes_S3x1_S1x3_1_0 : S3x1.Transposes [1, 0] S1x3
  slices_S524288x3_S524288x1_0_0 : S524288x3.Slices ![0, 0] S524288x1
  bcast_S_S524288x1 : S_.BroadcastsInDim S524288x1 (![] : Fin 0 → Fin S524288x1.rank)
  slices_S524288x3_S524288x1_0_1 : S524288x3.Slices ![0, 1] S524288x1
  slices_S524288x3_S524288x1_0_2 : S524288x3.Slices ![0, 2] S524288x1
  shapeCasts_S1x1_S_ : S1x1.ShapeCasts S_
  shapeCasts_S1_S_ : S1.ShapeCasts S_
  shapeCasts_S524288x1_S32768x16x1 : S524288x1.ShapeCasts S32768x16x1
  dot_S524288x64_S64x3_S524288x3_1_0_0_1_n_n_wf : DotDims.WF S524288x64 S64x3 S524288x3 [1] [0] [0] [1] [] []
  dot_S524288x1_S1x3_S524288x3_1_0_0_1_n_n_wf : DotDims.WF S524288x1 S1x3 S524288x3 [1] [0] [0] [1] [] []

variable [Facts₀]

def dot_S524288x64_S64x3_S524288x3_1_0_0_1_n_n : DotDims S524288x64 S64x3 S524288x3 where
  lhsContracting := [1]
  rhsContracting := [0]
  lhsNonContracting := [0]
  rhsNonContracting := [1]
  lhsBatch := []
  rhsBatch := []
  wf := dot_S524288x64_S64x3_S524288x3_1_0_0_1_n_n_wf
def dot_S524288x1_S1x3_S524288x3_1_0_0_1_n_n : DotDims S524288x1 S1x3 S524288x3 where
  lhsContracting := [1]
  rhsContracting := [0]
  lhsNonContracting := [0]
  rhsNonContracting := [1]
  lhsBatch := []
  rhsBatch := []
  wf := dot_S524288x1_S1x3_S524288x3_1_0_0_1_n_n_wf

class Facts : Prop extends Facts₀ where

variable [Facts]
-- ==== Proof.Cell.lean ====
/-
  One step of a gated recurrent cell with ONE hidden unit, applied to each of the 524288 rows of the input
  independently. A row holds 65 numbers: entry 0 is the row's hidden state `h`, entries 1 … 64 its input features.
  With the three gates numbered 0 (reset), 1 (update), 2 (candidate):

    a g = (sum over k of feature k times Wih g k) + bih g        the input's pre-activation of gate g
    b g = h * Whh g + bhh g                                      the hidden state's pre-activation of gate g
    r   = logistic (a 0 + b 0)
    z   = logistic (a 1 + b 1)
    n   = tanh (a 2 + r * b 2)
    out = ((1 - z) * n + z * h) * wo + bo

  Everything is read on the extended reals; the literal `1` of `1 - z` is kept as the word both programs print. No law of
  arithmetic is used anywhere: the kernel and the reference perform these operations in this order, entry by entry, and
  differ only in how they lay the rows out (blocks of 4096 rows against the whole array) and in how they spell the logistic
  function (one operation against `1 / (1 + exp (-x))`, which is its definition here).
-/
import Idealize.ShloMosaic.PureOps.Ideal
import Idealize.ShloMosaic.PureOps.Ideal.Laws
import Idealize.ShloMosaic.Lib.ValueIdx

noncomputable section

open scoped BigOperators

namespace Cert.GruCell

open Idealize.ShloMosaic Idealize.ShloMosaic.ValueIdx

/-- The word of the float `1.0` denotes the real number one. -/
theorem one_word : Ideal.ofBits .f32 0x3F800000#32 = 1 := by
  simp [Ideal.ofBits, Ideal.ieee, -EReal.coe_mul]; norm_num

/-- The input's pre-activation of gate `g`: the row's 64 features against row `g` of the weights, plus the bias. -/
def preIn (x : Fin 65 → EReal) (wih : Fin 3 → Fin 64 → EReal) (bi : Fin 3 → EReal) (g : Fin 3) : EReal :=
  (∑ k : Fin 64, x ⟨1 + k.val, by have := k.isLt; omega⟩ * wih g k) + bi g

/-- The hidden state's pre-activation of gate `g`. -/
def preHid (x : Fin 65 → EReal) (whh bh : Fin 3 → EReal) (g : Fin 3) : EReal :=
  x 0 * whh g + bh g

/-- A gate: the logistic function of the two pre-activations' sum. -/
def gate (a b : EReal) : EReal := Ideal.logistic (a + b)

/-- The cell's output for one row. -/
def cell (x : Fin 65 → EReal) (wih : Fin 3 → Fin 64 → EReal) (whh bi bh : Fin 3 → EReal) (wo bo : EReal) : EReal :=
  ((Ideal.ofBits .f32 0x3F800000#32 - gate (preIn x wih bi 1) (preHid x whh bh 1))
        * Ideal.tanh (preIn x wih bi 2 + gate (preIn x wih bi 0) (preHid x whh bh 0) * preHid x whh bh 2)
      + gate (preIn x wih bi 1) (preHid x whh bh 1) * x 0) * wo + bo

/-- The shapes of the seven arguments, of the input seen as rows, and of the result seen as rows. -/
abbrev SX : Shape := ⟨3, ![32768, 16, 65]⟩
abbrev SWih : Shape := ⟨2, ![3, 64]⟩
abbrev SWhh : Shape := ⟨2, ![3, 1]⟩
abbrev SB : Shape := ⟨1, ![3]⟩
abbrev SWo : Shape := ⟨2, ![1, 1]⟩
abbrev SBo : Shape := ⟨1, ![1]⟩
abbrev SRows : Shape := ⟨2, ![524288, 1]⟩

/-- Row `p` of the input: the three-axis array read with its two leading axes merged, `p = 16 * (p / 16) + p % 16`. -/
def rowOf (X : FVec Ideal SX .f32) (p : Fin 524288) (j : Fin 65) : EReal :=
  X (ix3 (⟨p.val / 16, by have := p.isLt; omega⟩ : Fin 32768) (⟨p.val % 16, Nat.mod_lt _ (by decide)⟩ : Fin 16) j)

/-- The result as a column of 524288 rows: the cell at every row. Both programs compute this column and then cast it to
    the three-axis shape of the result. -/
def Rows (X : FVec Ideal SX .f32) (Wih : FVec Ideal SWih .f32) (Whh : FVec Ideal SWhh .f32) (bih bhh : FVec Ideal SB .f32)
    (wo : FVec Ideal SWo .f32) (bo : FVec Ideal SBo .f32) : FVec Ideal SRows .f32 :=
  fun i => cell (rowOf X (i 0)) (fun g k => Wih (ix2 g k)) (fun g => Whh (ix2 g (0 : Fin 1))) (fun g => bih (ix1 g))
    (fun g => bhh (ix1 g)) (wo (ix2 (0 : Fin 1) (0 : Fin 1))) (bo (ix1 (0 : Fin 1)))

end Cert.GruCell

end
-- ==== Proof.RefRows.lean ====
/-
  The reference computes the cell of every row. Its program slices the hidden state (entry 0) and the 64 features
  (entries 1 … 64) off the three-axis input and merges the two leading axes; row `p` of either is read from the input at
  `(p / 16, p % 16, ·)`. The features meet the transposed weights in a product over 64 positions, the hidden state meets
  the transposed hidden weights in a product over ONE position, which is a single term. Each gate is written out as
  `1 / (1 + exp (-x))`, the logistic function's definition on the extended reals.
-/
import proofs.«177776_j49933289783562_1_alg».proof.Proof.Gen.ReferenceIdeal.Read
import proofs.«177776_j49933289783562_1_alg».proof.Proof.Cell

noncomputable section

open scoped BigOperators

namespace Cert.ReferenceIdeal.RefRows

open Cert.ReferenceIdeal Cert.ReferenceIdeal.Read Idealize.ShloMosaic Idealize.ShloMosaic.ValueIdx Cert.GruCell

variable (x0 : (⟨S32768x16x65, .f32⟩ : BufTy).Contents (Elt Ideal)) (x1 : (⟨S3x64, .f32⟩ : BufTy).Contents (Elt Ideal))
  (x2 : (⟨S3x1, .f32⟩ : BufTy).Contents (Elt Ideal)) (x3 x4 : (⟨S3, .f32⟩ : BufTy).Contents (Elt Ideal))
  (x5 : (⟨S1x1, .f32⟩ : BufTy).Contents (Elt Ideal)) (x6 : (⟨S1, .f32⟩ : BufTy).Contents (Elt Ideal))

/-- The hidden state of row `p`. -/
theorem hidden_at (p : Fin 524288) : val_main_v3 (F := Ideal) x0 (ix2 p (0 : Fin 1)) = rowOf x0 p 0 := by
  rw [val_main_v3_apply, val_main_v2_apply]
  unfold rowOf
  refine congrArg x0 (funext fun a => Fin.ext ?_)
  have hp := p.isLt
  match a with
  | ⟨0, _⟩ => show (p.val * 1 + 0) / 16 = p.val / 16; omega
  | ⟨1, _⟩ => show (p.val * 1 + 0) / 1 % 16 = p.val % 16; omega
  | ⟨2, _⟩ => rfl

/-- Feature `k` of row `p`. -/
theorem feature_at (p : Fin 524288) (k : Fin 64) :
    val_main_v1 (F := Ideal) x0 (ix2 p k) = rowOf x0 p ⟨1 + k.val, by have := k.isLt; omega⟩ := by
  rw [val_main_v1_apply, val_main_v0_apply]
  unfold rowOf
  refine congrArg x0 (funext fun a => Fin.ext ?_)
  have hp := p.isLt
  have hk := k.isLt
  match a with
  | ⟨0, _⟩ => show (p.val * 64 + k.val) / 1024 = p.val / 16; omega
  | ⟨1, _⟩ => show (p.val * 64 + k.val) / 64 % 16 = p.val % 16; omega
  | ⟨2, _⟩ => show 1 + (p.val * 64 + k.val) % 64 = 1 + k.val; omega

/-- The input's pre-activation of gate `g` at row `p`. -/
theorem preIn_at (p : Fin 524288) (g : Fin 3) :
    val_main_v8 (F := Ideal) x0 x1 x3 (ix2 p g)
      = preIn (rowOf x0 p) (fun g k => x1 (ix2 g k)) (fun g => x3 (ix1 g)) g := by
  rw [val_main_v8_apply, val_main_v5_apply, val_main_v7_apply, val_main_v6_apply]
  unfold preIn
  have e1 : ∀ k : Fin 64, lidx_main_v5 (ix2 p g) k = ix2 p k := fun k =>
    funext fun a => Fin.ext (by match a with | ⟨0, _⟩ => rfl | ⟨1, _⟩ => rfl)
  have e2 : ∀ k : Fin 64, idx_main_v4 (ridx_main_v5 (ix2 p g) k) = ix2 g k := fun k =>
    funext fun a => Fin.ext (by match a with | ⟨0, _⟩ => rfl | ⟨1, _⟩ => rfl)
  have e3 : idx_main_v6 (idx_main_v7 (ix2 p g)) = ix1 g :=
    funext fun a => Fin.ext (by match a with | ⟨0, _⟩ => rfl)
  simp only [e1, e3, val_main_v4_apply, e2, feature_at]
  rfl

/-- The hidden state's pre-activation of gate `g` at row `p`: the product over one position is its one term. -/
theorem preHid_at (p : Fin 524288) (g : Fin 3) :
    val_main_v13 (F := Ideal) x0 x2 x4 (ix2 p g)
      = preHid (rowOf x0 p) (fun g => x2 (ix2 g (0 : Fin 1))) (fun g => x4 (ix1 g)) g := by
  rw [val_main_v13_apply, val_main_v10_apply, val_main_v12_apply, val_main_v11_apply, Fin.sum_univ_one, val_main_v9_apply]
  unfold preHid
  have e1 : lidx_main_v10 (ix2 p g) (0 : Fin 1) = ix2 p (0 : Fin 1) :=
    funext fun a => Fin.ext (by match a with | ⟨0, _⟩ => rfl | ⟨1, _⟩ => rfl)
  have e2 : idx_main_v9 (ridx_main_v10 (ix2 p g) (0 : Fin 1)) = ix2 g (0 : Fin 1) :=
    funext fun a => Fin.ext (by match a with | ⟨0, _⟩ => rfl | ⟨1, _⟩ => rfl)
  have e3 : idx_main_v11 (idx_main_v12 (ix2 p g)) = ix1 g :=
    funext fun a => Fin.ext (by match a with | ⟨0, _⟩ => rfl)
  rw [e1, e2, e3, hidden_at]
  rfl

/-- Column `c` of a three-column array, as the reference slices it: the index equations. -/
theorem col0 (p : Fin 524288) : idx_main_v14 (ix2 p (0 : Fin 1)) = ix2 p (0 : Fin 3) :=
  funext fun a => Fin.ext (by match a with | ⟨0, _⟩ => rfl | ⟨1, _⟩ => rfl)
theorem col1 (p : Fin 524288) : idx_main_v23 (ix2 p (0 : Fin 1)) = ix2 p (1 : Fin 3) :=
  funext fun a => Fin.ext (by match a with | ⟨0, _⟩ => rfl | ⟨1, _⟩ => rfl)
theorem col2 (p : Fin 524288) : idx_main_v32 (ix2 p (0 : Fin 1)) = ix2 p (2 : Fin 3) :=
  funext fun a => Fin.ext (by match a with | ⟨0, _⟩ => rfl | ⟨1, _⟩ => rfl)

/-- The written-out logistic function: with the word of `1.0` read as one it is the definition. -/
theorem logistic_spelt (v : EReal) :
    Ideal.div (Ideal.ofBits .f32 0x3F800000#32) (Ideal.ofBits .f32 0x3F800000#32 + Ideal.exp (-v)) = Ideal.logistic v := by
  rw [one_word]; rfl

/-- The reset gate at row `p`. -/
theorem reset_at (p : Fin 524288) :
    val_main_v22 (F := Ideal) x0 x1 x2 x3 x4 (ix2 p (0 : Fin 1))
      = gate (preIn (rowOf x0 p) (fun g k => x1 (ix2 g k)) (fun g => x3 (ix1 g)) 0)
          (preHid (rowOf x0 p) (fun g => x2 (ix2 g (0 : Fin 1))) (fun g => x4 (ix1 g)) 0) := by
  rw [val_main_v22_apply, val_main_v21_apply, val_main_cst_0_apply, val_main_v20_apply, val_main_v19_apply, val_main_cst_apply,
    val_main_v18_apply, val_main_v17_apply, val_main_v16_apply, val_main_v14_apply, val_main_v15_apply]
  rw [show idx_main_v15 (ix2 p (0 : Fin 1)) = ix2 p (0 : Fin 3) from col0 p, col0, preIn_at, preHid_at]
  exact logistic_spelt _

/-- The update gate at row `p`. -/
theorem update_at (p : Fin 524288) :
    val_main_v31 (F := Ideal) x0 x1 x2 x3 x4 (ix2 p (0 : Fin 1))
      = gate (preIn (rowOf x0 p) (fun g k => x1 (ix2 g k)) (fun g => x3 (ix1 g)) 1)
          (preHid (rowOf x0 p) (fun g => x2 (ix2 g (0 : Fin 1))) (fun g => x4 (ix1 g)) 1) := by
  rw [val_main_v31_apply, val_main_v30_apply, val_main_cst_2_apply, val_main_v29_apply, val_main_v28_apply, val_main_cst_1_apply,
    val_main_v27_apply, val_main_v26_apply, val_main_v25_apply, val_main_v23_apply, val_main_v24_apply]
  rw [show idx_main_v24 (ix2 p (0 : Fin 1)) = ix2 p (1 : Fin 3) from col1 p, col1, preIn_at, preHid_at]
  exact logistic_spelt _

/-- An array with one entry has one index. -/
theorem one_by_one {α : Type} (x : S1x1.Idx → α) (k : S1x1.Idx) : x k = x (ix2 (0 : Fin 1) (0 : Fin 1)) :=
  congrArg x (funext fun a => Fin.ext (by
    match a with
    | ⟨0, _⟩ => have h : (k 0).val < 1 := (k 0).isLt; show (k 0).val = 0; omega
    | ⟨1, _⟩ => have h : (k 1).val < 1 := (k 1).isLt; show (k 1).val = 0; omega))
theorem one_entry {α : Type} (x : S1.Idx → α) (k : S1.Idx) : x k = x (ix1 (0 : Fin 1)) :=
  congrArg x (funext fun a => Fin.ext (by
    match a with
    | ⟨0, _⟩ => have h : (k 0).val < 1 := (k 0).isLt; show (k 0).val = 0; omega))

/-- The column the reference computes before its last cast is the cell of every row. -/
theorem rows_eq : val_main_v47 (F := Ideal) x0 x1 x2 x3 x4 x5 x6 = Rows x0 x1 x2 x3 x4 x5 x6 := by
  funext i
  obtain ⟨p, q, rfl⟩ : ∃ (p : Fin 524288) (q : Fin 1), i = ix2 p q := ⟨i 0, i 1, eq_ix2 i⟩
  obtain rfl : q = 0 := Subsingleton.elim _ _
  rw [val_main_v47_apply, val_main_v44_apply, val_main_v41_apply, val_main_v39_apply, val_main_v38_apply, val_main_v37_apply,
    val_main_cst_3_apply, val_main_v36_apply, val_main_v35_apply, val_main_v34_apply, val_main_v40_apply, val_main_v32_apply,
    val_main_v33_apply, val_main_v43_apply, val_main_v46_apply]
  rw [show idx_main_v33 (ix2 p (0 : Fin 1)) = ix2 p (2 : Fin 3) from col2 p, col2, preIn_at, preHid_at, reset_at, update_at,
    hidden_at]
  rw [show val_main_v42 (F := Ideal) x5 (idx_main_v43 (ix2 p (0 : Fin 1))) = x5 (ix2 (0 : Fin 1) (0 : Fin 1)) from one_by_one x5 _,
    show val_main_v45 (F := Ideal) x6 (idx_main_v46 (ix2 p (0 : Fin 1))) = x6 (ix1 (0 : Fin 1)) from one_entry x6 _]
  rfl

end Cert.ReferenceIdeal.RefRows

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.BlockCell.lean ====
/-
  One block of the kernel: 4096 rows of the input, the transposed weights and the biases as the body loads them. The
  body's stored value at row `r` of the block is the cell of that row: the 64 features are multiplied into the
  64 x 3 transposed weights (entry `(k, g)` of the transposed matrix is weight `g k`), the hidden state is column 0 of the
  block, the two gates are columns 0 and 1 of ONE logistic over a 4096 x 2 array, the candidate is column 2.
-/
import proofs.«177776_j49933289783562_1_alg».proof.Proof.Gen.KernelIdeal.Skeleton
import proofs.«177776_j49933289783562_1_alg».proof.Proof.Cell
import proofs.«177776_j49933289783562_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockCell

open Cert.KernelIdeal Cert.KernelIdeal.Gen Idealize.ShloMosaic Idealize.ShloMosaic.ValueIdx Cert.GruCell

/-- The printed dimension numbers of the body's product are those of a plain 4096 x 64 by 64 x 3 product. -/
theorem dims_plain : dot_S4096x64_S64x3_S4096x3_1_0_0_1_n_n = DotDims.plain 4096 64 3 := rfl

/-- The one entry of a 1 x 1 array, as the body extracts it. -/
theorem extract_one {α : Type} (x : S1x1.Idx → α) (h : ∀ a, (![0, 0] : Fin 2 → Nat) a < S1x1.size a) :
    extractAt ![0, 0] x h = x (ix2 (0 : Fin 1) (0 : Fin 1)) :=
  congrArg x (funext fun a => Fin.ext (by match a with | ⟨0, _⟩ => rfl | ⟨1, _⟩ => rfl))

/-- A column broadcast over three columns reads the column's row. -/
theorem bcast_col {α : Type} (v : S4096x1.Idx → α) (h : S4096x1.Broadcasts S4096x3) (r : Fin 4096) (g : Fin 3) :
    broadcastTo S4096x3 v h (ix2 r g) = v (ix2 r (0 : Fin 1)) := by
  refine broadcastTo_apply v h (ix2 r g) (ix2 r (0 : Fin 1)) fun ax => ?_
  match ax with
  | ⟨0, _⟩ => show r.val = if (4096 : Nat) = 1 then 0 else r.val; rw [if_neg (by decide)]
  | ⟨1, _⟩ => show (0 : Nat) = if (1 : Nat) = 1 then 0 else g.val; rw [if_pos rfl]

/-- The logistic function and the hyperbolic tangent of an array, entry by entry. -/
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

variable (x0 : Vec Ideal S4096x65 .f32) (x1 : Vec Ideal S64x3 .f32) (x2 x3 x4 : Vec Ideal S1x3 .f32)
  (x5 x6 : Vec Ideal S1x1 .f32)

theorem pay_at (r : Fin 4096) :
    k0_pay1 (k0_pay2 x0 x1 x3 x2 x4 x5) (k0_pay3 x6) (ix2 r (0 : Fin 1))
      = cell (fun j => x0 (ix2 r j)) (fun g k => x1 (ix2 k g)) (fun g => x2 (ix2 (0 : Fin 1) g)) (fun g => x3 (ix2 (0 : Fin 1) g))
          (fun g => x4 (ix2 (0 : Fin 1) g)) (x5 (ix2 (0 : Fin 1) (0 : Fin 1))) (x6 (ix2 (0 : Fin 1) (0 : Fin 1))) := by
  unfold k0_pay1 k0_pay2 k0_pay3
  simp only [addf_apply, mulf_apply, subf_apply, broadcast_apply, extract_one, shapeCast_self, logistic_at, tanh_at,
    slice2_axis1_apply 1 _ _ r (0 : Fin 1) (1 : Fin 2) rfl,
    slice2_axis1_apply 0 _ _ r (0 : Fin 1) (0 : Fin 2) rfl,
    slice2_axis1_apply 0 _ _ r (0 : Fin 1) (0 : Fin 65) rfl,
    slice2_axis1_apply 2 _ _ r (0 : Fin 1) (2 : Fin 3) rfl,
    slice2_axis1_apply 0 _ _ r (0 : Fin 2) (0 : Fin 3) rfl,
    slice2_axis1_apply 0 _ _ r (1 : Fin 2) (1 : Fin 3) rfl,
    bcast_col, broadcastTo_1b_ab_apply, dims_plain, LibPlainProduct.matmul_zero_plain_apply, slice2_axis1_eq]
  rfl

/-- The body's stored value at a row of a block is the result column at the row of the whole input it was read from,
    once the block's entries are identified with the arguments' entries. -/
theorem block_row (X : FVec Ideal SX .f32) (Wih : FVec Ideal SWih .f32) (Whh : FVec Ideal SWhh .f32) (bih bhh : FVec Ideal SB .f32)
    (wo : FVec Ideal SWo .f32) (bo : FVec Ideal SBo .f32) (y : S4096x1.Idx) (i : S524288x1.Idx)
    (h0 : ∀ j : Fin 65, x0 (ix2 (y 0) j) = rowOf X (i 0) j)
    (h1 : ∀ (k : Fin 64) (g : Fin 3), x1 (ix2 k g) = Wih (ix2 g k))
    (h2 : ∀ g : Fin 3, x2 (ix2 (0 : Fin 1) g) = Whh (ix2 g (0 : Fin 1)))
    (h3 : ∀ g : Fin 3, x3 (ix2 (0 : Fin 1) g) = bih (ix1 g))
    (h4 : ∀ g : Fin 3, x4 (ix2 (0 : Fin 1) g) = bhh (ix1 g))
    (h5 : x5 (ix2 (0 : Fin 1) (0 : Fin 1)) = wo (ix2 (0 : Fin 1) (0 : Fin 1)))
    (h6 : x6 (ix2 (0 : Fin 1) (0 : Fin 1)) = bo (ix1 (0 : Fin 1))) :
    k0_pay1 (k0_pay2 x0 x1 x3 x2 x4 x5) (k0_pay3 x6) y = Rows X Wih Whh bih bhh wo bo i := by
  obtain ⟨r, q, rfl⟩ : ∃ (r : Fin 4096) (q : Fin 1), y = ix2 r q := ⟨y 0, y 1, eq_ix2 y⟩
  obtain rfl : q = 0 := Subsingleton.elim _ _
  have e0 : (fun j => x0 (ix2 r j)) = rowOf X (i 0) := funext fun j => h0 j
  rw [pay_at]
  unfold Rows
  rw [e0, h5, h6]
  simp only [h1, h2, h3, h4]

end Cert.KernelIdeal.BlockCell

end
-- ==== Proof.KernelRows.lean ====
/-
  The kernel's result column. The grid has 128 points; point `t` reads rows `4096 t … 4096 t + 4095` of the input seen as
  524288 rows of 65 entries, and the whole of every parameter array, and writes back rows `4096 t …` of the result column:
  the cell of each of those rows. The 128 blocks tile the column, so after the run the column holds the cell of every row.
  The host operations before the kernel only re-lay the arguments (merge the two leading axes of the input; transpose the
  weights; add a unit axis to the biases), and the one after it casts the column to the three-axis shape of the result.
-/
import proofs.«177776_j49933289783562_1_alg».proof.Proof.Gen.KernelIdeal.Frame
import proofs.«177776_j49933289783562_1_alg».proof.Proof.BlockCell
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.KernelRows

open Cert.KernelIdeal Cert.KernelIdeal.Gen Cert.KernelIdeal.BlockCell Idealize.ShloMosaic Idealize.ShloMosaic.TcCoe
  Idealize.ShloMosaic.ValueIdx Idealize.SL.Sem Cert.GruCell
open Idealize.ShloMosaic.Pipeline (Dat)

variable (m : (ℓ : Loc nD τ sig) → Buf (Elt Ideal) ℓ) (ρ : Dev nD → PrngReg)

/-! ## The arrays as the kernel finds them -/

theorem hz : (![0, 0] : Fin 2 → Nat) = fun _ => 0 := funext fun a => by fin_cases a <;> rfl

/-- Where each window's block sits: window 0 and the output window move down one block of rows per point, the
    parameter windows stay on the one block that is their whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Merging the two leading axes: row `p` of the merged array is the input at `(p / 16, p % 16, ·)`. -/
theorem merged_at (X : S32768x16x65.Idx → Ideal .f32) (h : S32768x16x65.ShapeCasts S524288x65) (p : Fin 524288) (j : Fin 65) :
    shapeCast S524288x65 X h (ix2 p j) = rowOf X p j := by
  unfold rowOf
  refine shapeCast_apply (s := S32768x16x65) (t := S524288x65) X h (ix2 p j) _ ?_
  rw [Shape.rowMajor_val_three, Shape.rowMajor_val_two]
  have hp := p.isLt
  show (p.val / 16 * 16 + p.val % 16) * 65 + j.val = p.val * 65 + j.val
  omega

/-- The input as rows: the host merges the two leading axes. -/
theorem rows_in (c : Dev nD) (p : Fin 524288) (j : Fin 65) :
    (V m c main_v0 : S524288x65.Idx → Ideal .f32) (ix2 p j) = rowOf (m ((c : Thread nD τ).loc main_arg0)) p j := by
  have e : (V m c main_v0 : S524288x65.Idx → Ideal .f32)
      = shapeCast S524288x65 (m ((c : Thread nD τ).loc main_arg0)) shapeCasts_S32768x16x65_S524288x65 := by
    show StableHlo.after hostOps0 (fun b => m (c, b)) (Proc.devRef .tc main_v0) = _
    after_results
    rfl
  rw [e]
  exact merged_at _ _ p j

/-- The transposed input weights: entry `(k, g)` is weight `(g, k)`. -/
theorem wih_in (c : Dev nD) (k : Fin 64) (g : Fin 3) :
    (V m c main_v1 : S64x3.Idx → Ideal .f32) (ix2 k g) = m ((c : Thread nD τ).loc main_arg1) (ix2 g k) := by
  have e : (V m c main_v1 : S64x3.Idx → Ideal .f32)
      = transpose S64x3 [1, 0] (m ((c : Thread nD τ).loc main_arg1)) transposes_S3x64_S64x3_1_0 := by
    show StableHlo.after hostOps0 (fun b => m (c, b)) (Proc.devRef .tc main_v1) = _
    after_results
  rw [e]
  exact transpose_ix2_apply (a := 3) (b := 64) _ _ k g

/-- The transposed hidden weights. -/
theorem whh_in (c : Dev nD) (g : Fin 3) :
    (V m c main_v2 : S1x3.Idx → Ideal .f32) (ix2 (0 : Fin 1) g) = m ((c : Thread nD τ).loc main_arg2) (ix2 g (0 : Fin 1)) := by
  have e : (V m c main_v2 : S1x3.Idx → Ideal .f32)
      = transpose S1x3 [1, 0] (m ((c : Thread nD τ).loc main_arg2)) transposes_S3x1_S1x3_1_0 := by
    show StableHlo.after hostOps0 (fun b => m (c, b)) (Proc.devRef .tc main_v2) = _
    after_results
  rw [e]
  exact transpose_ix2_apply (a := 3) (b := 1) _ _ (0 : Fin 1) g

/-- The biases with a unit axis in front. -/
theorem bih_in (c : Dev nD) (g : Fin 3) :
    (V m c main_v3 : S1x3.Idx → Ideal .f32) (ix2 (0 : Fin 1) g) = m ((c : Thread nD τ).loc main_arg3) (ix1 g) := by
  have e : (V m c main_v3 : S1x3.Idx → Ideal .f32)
      = shapeCast S1x3 (m ((c : Thread nD τ).loc main_arg3)) shapeCasts_S3_S1x3 := by
    show StableHlo.after hostOps0 (fun b => m (c, b)) (Proc.devRef .tc main_v3) = _
    after_results
    rfl
  rw [e]
  exact shapeCast_a_1a_apply (a := 3) _ _ (0 : Fin 1) g

theorem bhh_in (c : Dev nD) (g : Fin 3) :
    (V m c main_v4 : S1x3.Idx → Ideal .f32) (ix2 (0 : Fin 1) g) = m ((c : Thread nD τ).loc main_arg4) (ix1 g) := by
  have e : (V m c main_v4 : S1x3.Idx → Ideal .f32)
      = shapeCast S1x3 (m ((c : Thread nD τ).loc main_arg4)) shapeCasts_S3_S1x3 := by
    show StableHlo.after hostOps0 (fun b => m (c, b)) (Proc.devRef .tc main_v4) = _
    after_results
    rfl
  rw [e]
  exact shapeCast_a_1a_apply (a := 3) _ _ (0 : Fin 1) g

/-- The output bias with a unit axis in front. -/
theorem bo_in (c : Dev nD) :
    (V m c main_v5 : S1x1.Idx → Ideal .f32) (ix2 (0 : Fin 1) (0 : Fin 1)) = m ((c : Thread nD τ).loc main_arg6) (ix1 (0 : Fin 1)) := by
  have e : (V m c main_v5 : S1x1.Idx → Ideal .f32)
      = shapeCast S1x1 (m ((c : Thread nD τ).loc main_arg6)) shapeCasts_S1_S1x1 := by
    show StableHlo.after hostOps0 (fun b => m (c, b)) (Proc.devRef .tc main_v5) = _
    after_results
    rfl
  rw [e]
  exact shapeCast_a_1a_apply (a := 1) _ _ (0 : Fin 1) (0 : Fin 1)

/-! ## The windows' blocks -/

/-- Row `r` of the input window's block at point `t` is row `4096 t + r` of the merged input. -/
theorem in_block (c : Dev nD) (t : Fin cfg0.N) (r : Fin 4096) (j : Fin 65) (p : Fin 524288) (hp : p.val = t.val * 4096 + r.val) :
    (iblk m c 0 t : Vec Ideal S4096x65 .f32) (ix2 r j) = (V m c main_v0 : S524288x65.Idx → Ideal .f32) (ix2 p j) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 4096 + 1 * r.val = p.val; rw [e0, hp]; omega
  | ⟨1, _⟩ => show win0_0.index t (1 : Fin 2) * 65 + 1 * j.val = j.val; rw [e1]; omega

/-- A parameter window's one block is its whole array. -/
theorem whole1 (c : Dev nD) (t : Fin cfg0.N) : (iblk m c 1 t : Vec Ideal S64x3 .f32) = V m c main_v1 := by
  obtain ⟨-, -, e0, e1, -⟩ := idx_facts t
  funext j
  unfold iblk
  rw [View.read_apply]
  show V m c main_v1 _ = V m c main_v1 j
  congr 1
  funext a
  apply Fin.ext
  match a with
  | ⟨0, _⟩ => show win0_1.index t (0 : Fin 2) * 64 + 1 * (j 0).val = (j 0).val; rw [e0]; omega
  | ⟨1, _⟩ => show win0_1.index t (1 : Fin 2) * 3 + 1 * (j 1).val = (j 1).val; rw [e1]; omega

theorem whole2 (c : Dev nD) (t : Fin cfg0.N) : (iblk m c 2 t : Vec Ideal S1x3 .f32) = V m c main_v2 := by
  obtain ⟨-, -, -, -, e0, e1, -⟩ := idx_facts t
  funext j
  unfold iblk
  rw [View.read_apply]
  show V m c main_v2 _ = V m c main_v2 j
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 3 + 1 * (j 1).val = (j 1).val; rw [e1]; omega

theorem whole3 (c : Dev nD) (t : Fin cfg0.N) : (iblk m c 3 t : Vec Ideal S1x3 .f32) = V m c main_v3 := by
  obtain ⟨-, -, -, -, -, -, e0, e1, -⟩ := idx_facts t
  funext j
  unfold iblk
  rw [View.read_apply]
  show V m c main_v3 _ = V m c main_v3 j
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 3 + 1 * (j 1).val = (j 1).val; rw [e1]; omega

theorem whole4 (c : Dev nD) (t : Fin cfg0.N) : (iblk m c 4 t : Vec Ideal S1x3 .f32) = V m c main_v4 := by
  obtain ⟨-, -, -, -, -, -, -, -, e0, e1, -⟩ := idx_facts t
  funext j
  unfold iblk
  rw [View.read_apply]
  show V m c main_v4 _ = V m c main_v4 j
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 3 + 1 * (j 1).val = (j 1).val; rw [e1]; omega

theorem whole5 (c : Dev nD) (t : Fin cfg0.N) : (iblk m c 5 t : Vec Ideal S1x1 .f32) = V m c main_arg5 := by
  obtain ⟨-, -, -, -, -, -, -, -, -, -, e0, e1, -⟩ := idx_facts t
  funext j
  unfold iblk
  rw [View.read_apply]
  show V m c main_arg5 _ = V m c main_arg5 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 1 + 1 * (j 1).val = (j 1).val; rw [e1]; omega

theorem whole6 (c : Dev nD) (t : Fin cfg0.N) : (iblk m c 6 t : Vec Ideal S1x1 .f32) = V m c main_v5 := by
  obtain ⟨-, -, -, -, -, -, -, -, -, -, -, -, e0, e1, -⟩ := idx_facts t
  funext j
  unfold iblk
  rw [View.read_apply]
  show V m c main_v5 _ = V m c main_v5 j
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 1 + 1 * (j 1).val = (j 1).val; rw [e1]; omega

/-! ## The result column -/

/-- The result column of the arguments on core `c`. -/
abbrev column (c : Dev nD) : S524288x1.Idx → Ideal .f32 :=
  Rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is its block of the result column. -/
theorem flushed_rows (c : Dev nD) (t : Fin cfg0.N) :
    (dats m 0 c).flushed 7 t = ((cfg0.win 7).blk t).view.read (Elt Ideal) (column m c) := by
  show (cfg0.win 7).cut (grid0.coords t) ((dats m 0 c).after 7 t) = _
  rw [after0_7]
  unfold out0_7
  rw [View.canon_unit_zero hz]
  simp only [View.ld_unit_zero (S := S4096x65) hz, View.ld_unit_zero (S := S64x3) hz, View.ld_unit_zero (S := S1x3) hz,
    View.ld_unit_zero (S := S1x1) hz]
  funext y
  rw [View.read_apply]
  obtain ⟨-, -, -, -, -, -, -, -, -, -, -, -, -, -, e0, -⟩ := idx_facts t
  have ht : t.val < 128 := (show t.val < grid0.N from t.isLt).trans_eq N_0
  have hy : (y 0).val < 4096 := (y 0).isLt
  refine block_row (iblk m c 0 t) (iblk m c 1 t) (iblk m c 2 t) (iblk m c 3 t) (iblk m c 4 t) (iblk m c 5 t) (iblk m c 6 t)
    _ _ _ _ _ _ _ ((cfg0.win 7).xinj (grid0.coords t) y) (((cfg0.win 7).blk t).view.emb y) ?_ ?_ ?_ ?_ ?_ ?_ ?_
  · intro j
    exact (in_block m c t _ j ((((cfg0.win 7).blk t).view.emb y) 0) (by
      show win0_7.index t (0 : Fin 2) * 4096 + 1 * (y 0).val = t.val * 4096 + (y 0).val; rw [e0]; omega)).trans
      (rows_in m c _ j)
  · intro k g; rw [whole1]; exact wih_in m c k g
  · intro g; rw [whole2]; exact whh_in m c g
  · intro g; rw [whole3]; exact bih_in m c g
  · intro g; rw [whole4]; exact bhh_in m c g
  · rw [whole5, V_main_arg5]
  · rw [whole6]; exact bo_in m c

/-- An index of the column is in point `t`'s block iff each coordinate is in the block's range on its axis. -/
theorem mem_blk (t : Fin cfg0.N) (i : S524288x1.Idx) :
    i ∈ ((cfg0.win 7).blk t).view.set ↔ ∀ a : Fin 2, win0_7.index t a * S4096x1.size a ≤ (i a).val ∧ (i a).val < win0_7.index t a * S4096x1.size a + S4096x1.size a := by
  show i ∈ ((View.whole main_v6).slice (win0_7.rect t)).set ↔ _
  rw [View.set_slice_whole, Rect.mem_set_unit]
  exact Iff.rfl

/-- Row `p` of the column is written at point `p / 4096`. -/
theorem covered (i : S524288x1.Idx) :
    ∃ t : Fin cfg0.N, (cfg0.win 7).flush t = true ∧ i ∈ ((cfg0.win 7).blk t).view.set := by
  have h0 : (i 0).val < 524288 := (i 0).isLt
  have h1 : (i 1).val < 1 := (i 1).isLt
  have hN : (i 0).val / 4096 < cfg0.N := by show _ < grid0.N; rw [N_0]; omega
  refine ⟨⟨(i 0).val / 4096, hN⟩, flush0_7 _, ?_⟩
  rw [mem_blk]
  obtain ⟨-, -, -, -, -, -, -, -, -, -, -, -, -, -, e0, e1⟩ := idx_facts ⟨(i 0).val / 4096, hN⟩
  intro a
  match a with
  | ⟨0, _⟩ =>
    show win0_7.index ⟨(i 0).val / 4096, hN⟩ (0 : Fin 2) * 4096 ≤ (i 0).val ∧ (i 0).val < win0_7.index ⟨(i 0).val / 4096, hN⟩ (0 : Fin 2) * 4096 + 4096
    rw [e0]
    show (i 0).val / 4096 * 4096 ≤ (i 0).val ∧ (i 0).val < (i 0).val / 4096 * 4096 + 4096
    omega
  | ⟨1, _⟩ =>
    show win0_7.index ⟨(i 0).val / 4096, hN⟩ (1 : Fin 2) * 1 ≤ (i 1).val ∧ (i 1).val < win0_7.index ⟨(i 0).val / 4096, hN⟩ (1 : Fin 2) * 1 + 1
    rw [e1]
    omega

/-- After the run the output window's array holds the result column. -/
theorem column_final (c : Dev nD) : (dats m 0 c).arrAt 7 cfg0.N = column m c :=
  (dats m 0 c).arrAt_eq_of_cover 7 (column m c) (fun t _ => flushed_rows m c t) covered

/-! ## The host line after the kernel, and the run -/

/-- The program's result: the column cast to three axes. -/
theorem result_eq (c : Dev nD) :
    Pipeline.afterTail₀ cfgs (dats m) 0 (V0 m) [hostOps1] c main_v7
      = shapeCast S32768x16x1 (column m c) shapeCasts_S524288x1_S32768x16x1 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = column m c :=
    (Pipeline.withArrays_arr spec0 launch0.win.arr_inj c _ _ 7).trans (column_final m c)
  rw [e]
  rfl

/-- The run of the idealized kernel program, its result named: on every core the result is the cell of every row, cast
    to three axes, and the arguments end as they began. -/
theorem run : θ_run defs (onTc (τ := τ) (main (F := Ideal))) ⟨m, fun _ => 0, ρ⟩ (fun r => ∀ c : Dev nD,
      r.2.mem ((c.tc : Thread nD τ).loc main_v7) = shapeCast S32768x16x1 (column m c) shapeCasts_S524288x1_S32768x16x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KernelRows

end
-- ==== Proof.lean ====
/-
  A gated recurrent cell with one hidden unit, one step, over 524288 independent rows: the kernel against its reference.

  Both programs compute, for every row of the input (entry 0 the hidden state, entries 1 … 64 the features), the same
  chain of operations in the same order — two pre-activations per gate, a logistic reset and update gate, a hyperbolic-tangent
  candidate, the blend `(1 - z) n + z h`, and a one-by-one linear layer — and cast the resulting column to the
  three-axis shape of the result. On the extended reals the two results are equal entry by entry with no law of arithmetic
  used: the kernel's blocks of 4096 rows tile the column, its product into a zero accumulator is the reference's product,
  the reference's product over a single position is that one term, and `1 / (1 + exp (-x))` is the logistic function.
  So the precondition is never opened.

  The three frames are the generated ones (the reference's is its run with the result dropped); the idealization
  rewrote nothing, so there is nothing to preserve.
-/
import proofs.«177776_j49933289783562_1_alg».proof.Defs
import proofs.«177776_j49933289783562_1_alg».proof.Proof.Gen.Kernel
import proofs.«177776_j49933289783562_1_alg».proof.Proof.Gen.Kernel.Skeleton
import proofs.«177776_j49933289783562_1_alg».proof.Proof.Gen.Kernel.Launch
import proofs.«177776_j49933289783562_1_alg».proof.Proof.Gen.Kernel.Points
import proofs.«177776_j49933289783562_1_alg».proof.Proof.Gen.Kernel.Frame
import proofs.«177776_j49933289783562_1_alg».proof.Proof.Gen.KernelIdeal
import proofs.«177776_j49933289783562_1_alg».proof.Proof.Gen.KernelIdeal.Skeleton
import proofs.«177776_j49933289783562_1_alg».proof.Proof.Gen.KernelIdeal.Launch
import proofs.«177776_j49933289783562_1_alg».proof.Proof.Gen.KernelIdeal.Points
import proofs.«177776_j49933289783562_1_alg».proof.Proof.Gen.KernelIdeal.Frame
import proofs.«177776_j49933289783562_1_alg».proof.Proof.Gen.ReferenceIdeal
import proofs.«177776_j49933289783562_1_alg».proof.Proof.Gen.Pre_finite_inputs
import proofs.«177776_j49933289783562_1_alg».proof.Proof.Gen.ReferenceIdeal.Run
import proofs.«177776_j49933289783562_1_alg».proof.Proof.Gen.ReferenceIdeal.Read
import proofs.«177776_j49933289783562_1_alg».proof.Proof.Cell
import proofs.«177776_j49933289783562_1_alg».proof.Proof.RefRows
import proofs.«177776_j49933289783562_1_alg».proof.Proof.KernelRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments both programs end with the result at the cell of every row, cast to
    three axes: the kernel's run names it so, and the reference's last stage is the same cast of the same column. -/
theorem algebraic : Cert.algebraic_KernelIdeal_ReferenceIdeal := by
  intro m ρ m' ρ' _ hagree
  refine ⟨_, Cert.KernelIdeal.KernelRows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq]
  unfold Cert.ReferenceIdeal.Read.val_main_v48
  rw [Cert.ReferenceIdeal.RefRows.rows_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
